-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part2 {F : FTy → Type} [FloatOps F] (main_arg9 : FVec F S96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  main_v38

def fn_part1 {F : FTy → Type} [FloatOps F] (main_arg6 : FVec F S96x96 .f32) (main_arg7 : FVec F S96 .f32) (main_arg8 : FVec F S96x96 .f32) (main_arg9 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg8
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg9 main_v33

def fn {F : FTy → Type} [FloatOps F] (main_arg0 : FVec F S50000x96 .f32) (main_arg1 : FVec F S800000x96 .f32) (main_arg2 : IVec S800000 32) (main_arg3 : IVec S800000 32) (main_arg4 : FVec F S96x96 .f32) (main_arg5 : FVec F S96 .f32) (main_arg6 : FVec F S96x96 .f32) (main_arg7 : FVec F S96 .f32) (main_arg8 : FVec F S96x96 .f32) (main_arg9 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_v13 main_v16
-- ==== Kernel.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x96 : Shape := ⟨2, ![1, 96]⟩
abbrev S5000x96 : Shape := ⟨2, ![5000, 96]⟩
abbrev S5000x1 : Shape := ⟨2, ![5000, 1]⟩
abbrev S10000x96 : Shape := ⟨2, ![10000, 96]⟩

abbrev nBuf : Space → Nat
  | .hbm => 35
  | .vmem => 22
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000x96, .f32⟩
  | .hbm, ⟨26, _⟩ => ⟨S800000x1, .i32⟩
  | .hbm, ⟨27, _⟩ => ⟨S50000x96, .f32⟩
  | .hbm, ⟨28, _⟩ => ⟨S50000x1, .f32⟩
  | .hbm, ⟨29, _⟩ => ⟨S50000x1, .f32⟩
  | .hbm, ⟨30, _⟩ => ⟨S1x96, .f32⟩
  | .hbm, ⟨31, _⟩ => ⟨S1x96, .f32⟩
  | .hbm, ⟨32, _⟩ => ⟨S1x96, .f32⟩
  | .hbm, ⟨33, _⟩ => ⟨S50000x96, .f32⟩
  | .hbm, ⟨34, _⟩ => ⟨S800000x96, .f32⟩
  | .local _ .vmem, ⟨0, _⟩ => ⟨S5000x96, .f32⟩
  | .local _ .vmem, ⟨1, _⟩ => ⟨S5000x96, .f32⟩
  | .local _ .vmem, ⟨2, _⟩ => ⟨S5000x1, .f32⟩
  | .local _ .vmem, ⟨3, _⟩ => ⟨S5000x1, .f32⟩
  | .local _ .vmem, ⟨4, _⟩ => ⟨S5000x96, .f32⟩
  | .local _ .vmem, ⟨5, _⟩ => ⟨S5000x96, .f32⟩
  | .local _ .vmem, ⟨6, _⟩ => ⟨S5000x1, .f32⟩
  | .local _ .vmem, ⟨7, _⟩ => ⟨S5000x1, .f32⟩
  | .local _ .vmem, ⟨8, _⟩ => ⟨S5000x96, .f32⟩
  | .local _ .vmem, ⟨9, _⟩ => ⟨S5000x96, .f32⟩
  | .local _ .vmem, ⟨10, _⟩ => ⟨S96x96, .f32⟩
  | .local _ .vmem, ⟨11, _⟩ => ⟨S1x96, .f32⟩
  | .local _ .vmem, ⟨12, _⟩ => ⟨S96x96, .f32⟩
  | .local _ .vmem, ⟨13, _⟩ => ⟨S1x96, .f32⟩
  | .local _ .vmem, ⟨14, _⟩ => ⟨S5000x96, .f32⟩
  | .local _ .vmem, ⟨15, _⟩ => ⟨S5000x96, .f32⟩
  | .local _ .vmem, ⟨16, _⟩ => ⟨S10000x96, .f32⟩
  | .local _ .vmem, ⟨17, _⟩ => ⟨S10000x96, .f32⟩
  | .local _ .vmem, ⟨18, _⟩ => ⟨S96x96, .f32⟩
  | .local _ .vmem, ⟨19, _⟩ => ⟨S1x96, .f32⟩
  | .local _ .vmem, ⟨20, _⟩ => ⟨S10000x96, .f32⟩
  | .local _ .vmem, ⟨21, _⟩ => ⟨S10000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S50000_S50000x1 : S50000.ShapeCasts S50000x1
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  shapeCasts_S5000x96_S5000x96 : S5000x96.ShapeCasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S10000x96_S10000x96_0_0 : ∀ a, (![0, 0] : Fin 2 → Nat) a + S10000x96.size a ≤ S10000x96.size a
  h_S10000x96 : 0 < S10000x96.numel
  broadcasts_S1x96_S10000x96 : S1x96.Broadcasts S10000x96
  scatter_S50000_S800000x1_S800000_n_0_0_1_wf : ScatterDims.WF S50000 S800000x1 S800000 [] [0] [0] 1
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S10000x96_S96x96_S10000x96_1_0_0_1_n_n_wf : DotDims.WF S10000x96 S96x96 S10000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x96.size a ≤ S50000x96.size a
  hwx0_4 : ∀ i : grid0.Coords, EltTy.bits .f32 = 32 ∨ (Rect.block (s := S50000x96) S5000x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x96.size a ≤ S96x96.size a
  hwx0_5 : ∀ i : grid0.Coords, EltTy.bits .f32 = 32 ∨ (Rect.block (s := S96x96) S96x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .f32 = 32 ∨ (Rect.block (s := S1x96) S1x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x96.size a ≤ S96x96.size a
  hwx0_7 : ∀ i : grid0.Coords, EltTy.bits .f32 = 32 ∨ (Rect.block (s := S96x96) S96x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x96.size a ≤ S1x96.size a
  hwx0_8 : ∀ i : grid0.Coords, EltTy.bits .f32 = 32 ∨ (Rect.block (s := S1x96) S1x96.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x96.size a ≤ S50000x96.size a
  hwx0_9 : ∀ i : grid0.Coords, EltTy.bits .f32 = 32 ∨ (Rect.block (s := S50000x96) S5000x96.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S800000x96.size a
  hwx1_0 : ∀ i : grid1.Coords, EltTy.bits .f32 = 32 ∨ (Rect.block (s := S800000x96) S10000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x96.size a ≤ S800000x96.size a
  hwx1_3 : ∀ i : grid1.Coords, EltTy.bits .f32 = 32 ∨ (Rect.block (s := S800000x96) S10000x96.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x96.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S96x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S96x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S5000x96.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S800000 : Shape := ⟨1, ![800000]⟩
abbrev S96x96 : Shape := ⟨2, ![96, 96]⟩
abbrev S96 : Shape := ⟨1, ![96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x96 : Shape := ⟨2, ![1, 96]⟩

abbrev nBuf : Space → Nat
  | .hbm => 49
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x96, .f32⟩
  | .hbm, ⟨9, _⟩ => ⟨S96, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000x96, .f32⟩
  | .hbm, ⟨18, _⟩ => ⟨S800000x1, .i32⟩
  | .hbm, ⟨19, _⟩ => ⟨S50000x96, .f32⟩
  | .hbm, ⟨20, _⟩ => ⟨S50000x1, .f32⟩
  | .hbm, ⟨21, _⟩ => ⟨S50000x96, .f32⟩
  | .hbm, ⟨22, _⟩ => ⟨S50000x96, .f32⟩
  | .hbm, ⟨23, _⟩ => ⟨S50000x96, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000x96, .f32⟩
  | .hbm, ⟨30, _⟩ => ⟨S800000x1, .i32⟩
  | .hbm, ⟨31, _⟩ => ⟨S50000x96, .f32⟩
  | .hbm, ⟨32, _⟩ => ⟨S50000x1, .f32⟩
  | .hbm, ⟨33, _⟩ => ⟨S50000x96, .f32⟩
  | .hbm, ⟨34, _⟩ => ⟨S50000x96, .f32⟩
  | .hbm, ⟨35, _⟩ => ⟨S50000x96, .f32⟩
  | .hbm, ⟨36, _⟩ => ⟨S50000x96, .f32⟩
  | .hbm, ⟨37, _⟩ => ⟨S1x96, .f32⟩
  | .hbm, ⟨38, _⟩ => ⟨S50000x96, .f32⟩
  | .hbm, ⟨39, _⟩ => ⟨S50000x96, .f32⟩
  | .hbm, ⟨40, _⟩ => ⟨S50000x96, .f32⟩
  | .hbm, ⟨41, _⟩ => ⟨S1x96, .f32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S800000x96, .f32⟩
  | .hbm, ⟨46, _⟩ => ⟨S1x96, .f32⟩
  | .hbm, ⟨47, _⟩ => ⟨S800000x96, .f32⟩
  | .hbm, ⟨48, _⟩ => ⟨S800000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S1x96_S800000x96_0_1 : S1x96.BroadcastsInDim S800000x96 (![0, 1] : Fin 2 → Fin S800000x96.rank)
  scatter_S50000_S800000x1_S800000_n_0_0_1_wf : ScatterDims.WF S50000 S800000x1 S800000 [] [0] [0] 1
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S800000x96_S96x96_S800000x96_1_0_0_1_n_n_wf : DotDims.WF S800000x96 S96x96 S800000x96 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf

class Facts : Prop extends Facts₀ where

variable [Facts]
-- ==== Proof.HostSide.lean ====
/-
  What the two regions find in their windows' arrays.

  Before the first region the host aggregates: the in-degree of a node is the number of edges whose destination it
  is (ones scattered and added at the destinations), the incoming edge sum is the edge embeddings scattered and added
  at the destinations, and the same at the sources for the out-degree and the outgoing edge sum; the two degree
  vectors are then recast as columns and the three bias vectors as rows. The first region therefore finds the node
  embeddings and the two weight matrices as launched, the recast degrees, the edge sums and the recast biases; the
  second region, whose arrays the first one does not write, finds the edge embeddings and the relation matrix as
  launched and the recast relation bias.
-/
import proofs.«105803_j40810779247267_1_alg».proof.Proof.Gen.KernelIdeal.Frame
import Idealize.ShloMosaic.Lib.StableHlo.Run

noncomputable section

namespace Cert.KernelIdeal.HostSide

open Idealize.ShloMosaic Idealize.ShloMosaic.TcCoe Idealize.SL.Sem Idealize.ShloMosaic.StableHlo
open Cert.KernelIdeal Cert.KernelIdeal.Gen

variable {F : FTy → Type} [FloatOps F]

/-- The degree vector of an index list: a one scattered and added at each listed node. -/
def degOf (idx : IVec S800000 32) : FVec F S50000 .f32 :=
  Host.scatterAdd scatter_S50000_S800000x1_S800000_n_0_0_1 (broadcastInDim S50000 ![] bcast_S_S50000 (constant S_ .f32 0x00000000#32))
    (broadcastInDim S800000x1 ![0] bcast_S800000_S800000x1_0 idx) (broadcastInDim S800000 ![] bcast_S_S800000 (constant S_ .f32 0x3F800000#32))

/-- The edge sum of an index list: each edge's embedding scattered and added at its listed node. -/
def sumOf (e : FVec F S800000x96 .f32) (idx : IVec S800000 32) : FVec F S50000x96 .f32 :=
  Host.scatterAdd scatter_S50000x96_S800000x1_S800000x96_1_0_0_1 (broadcastInDim S50000x96 ![] bcast_S_S50000x96 (constant S_ .f32 0x00000000#32))
    (broadcastInDim S800000x1 ![0] bcast_S800000_S800000x1_0 idx) e

variable (m : (ℓ : Loc nD τ sig) → Buf (Elt F) ℓ) (ρ : Dev nD → PrngReg)

/-! ## The first region's arrays -/

theorem V1_arg0 (c : Dev nD) : V1 m ρ c main_arg0 = m ((c : Thread nD τ).loc main_arg0) := by
  show StableHlo.after hostOps0 (W0 m ρ c) (Proc.devRef .tc main_arg0) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg6 (c : Dev nD) : V1 m ρ c main_arg6 = m ((c : Thread nD τ).loc main_arg6) := by
  show StableHlo.after hostOps0 (W0 m ρ c) (Proc.devRef .tc main_arg6) = _
  after_results
/-- The in-degrees as a column. -/
theorem V1_v13 (c : Dev nD) : V1 m ρ c main_v13
    = shapeCast S50000x1 (degOf (F := F) (m ((c : Thread nD τ).loc main_arg3))) shapeCasts_S50000_S50000x1 := by
  show StableHlo.after hostOps0 (W0 m ρ c) (Proc.devRef .tc main_v13) = _
  after_results; rfl
/-- The out-degrees as a column. -/
theorem V1_v14 (c : Dev nD) : V1 m ρ c main_v14
    = shapeCast S50000x1 (degOf (F := F) (m ((c : Thread nD τ).loc main_arg2))) shapeCasts_S50000_S50000x1 := by
  show StableHlo.after hostOps0 (W0 m ρ c) (Proc.devRef .tc main_v14) = _
  after_results; rfl
/-- The incoming edge sums. -/
theorem V1_v6 (c : Dev nD) : V1 m ρ c main_v6
    = sumOf (F := F) (m ((c : Thread nD τ).loc main_arg1)) (m ((c : Thread nD τ).loc main_arg3)) := by
  show StableHlo.after hostOps0 (W0 m ρ c) (Proc.devRef .tc main_v6) = _
  after_results; rfl
/-- The outgoing edge sums. -/
theorem V1_v12 (c : Dev nD) : V1 m ρ c main_v12
    = sumOf (F := F) (m ((c : Thread nD τ).loc main_arg1)) (m ((c : Thread nD τ).loc main_arg2)) := by
  show StableHlo.after hostOps0 (W0 m ρ c) (Proc.devRef .tc main_v12) = _
  after_results; rfl
/-- The forward bias as a row. -/
theorem V1_v15 (c : Dev nD) : V1 m ρ c main_v15
    = shapeCast S1x96 (m ((c : Thread nD τ).loc main_arg5) : FVec F S96 .f32) shapeCasts_S96_S1x96 := by
  show StableHlo.after hostOps0 (W0 m ρ c) (Proc.devRef .tc main_v15) = _
  after_results; rfl
/-- The reversed bias as a row. -/
theorem V1_v16 (c : Dev nD) : V1 m ρ c main_v16
    = shapeCast S1x96 (m ((c : Thread nD τ).loc main_arg7) : FVec F S96 .f32) shapeCasts_S96_S1x96 := by
  show StableHlo.after hostOps0 (W0 m ρ c) (Proc.devRef .tc main_v16) = _
  after_results; rfl

/-! ## The second region's arrays: none is an array the first region writes -/

theorem V2_arg1 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results
theorem V2_arg8 (c : Dev nD) : V2 m ρ c main_arg8 = m ((c : Thread nD τ).loc main_arg8) := by
  refine (W2_of_ne m ρ c main_arg8 (by decide)).trans ?_
  show StableHlo.after hostOps0 (W0 m ρ c) (Proc.devRef .tc main_arg8) = _
  after_results
/-- The relation bias as a row. -/
theorem V2_v17 (c : Dev nD) : V2 m ρ c main_v17
    = shapeCast S1x96 (m ((c : Thread nD τ).loc main_arg9) : FVec F S96 .f32) shapeCasts_S96_S1x96 := by
  refine (W2_of_ne m ρ c main_v17 (by decide)).trans ?_
  show StableHlo.after hostOps0 (W0 m ρ c) (Proc.devRef .tc main_v17) = _
  after_results; rfl

end Cert.KernelIdeal.HostSide

end
-- ==== Proof.Spec.lean ====
/-
  What the two programs compute, stated once as whole-array functions over the extended reals.

  A node row `p` carries a degree `d p`, its embedding `x (p, ·)` and an aggregated edge sum `s (p, ·)`; its
  message is `d p · x (p, k) − s (p, k)` in coordinate `k`, and a projection by a `96 × 96` matrix `W` sends it to
  `∑ k, (d p · x (p, k) − s (p, k)) · W (k, q)`. The node result adds the forward projection with its bias to the
  reversed projection with its bias; the edge result is the plain product `e · W` plus a bias. Both programs are
  proved to end at these functions of the same aggregated arrays, so the aggregation itself is never opened.
-/
import Idealize.ShloMosaic.Lib.ValueIdx
import Idealize.ShloMosaic.PureOps.Ideal

noncomputable section

open scoped BigOperators

namespace Cert.Spec

open Idealize.ShloMosaic Idealize.ShloMosaic.ValueIdx

/-- A matrix shape and a vector shape, by their extents. -/
abbrev Sm (r c : ℕ) : Shape := ⟨2, ![r, c]⟩
abbrev Sv (n : ℕ) : Shape := ⟨1, ![n]⟩

/-- The message of row `p` projected by `W`, at column `q`: the sum over the 96 coordinates of
    `(d p · x (p, k) − s (p, k)) · W (k, q)`. The number of rows is free: a block of rows and the whole array
    read the same way. -/
def proj {R : ℕ} (d : Fin R → EReal) (x s : (Sm R 96).Idx → EReal) (W : (Sm 96 96).Idx → EReal) (p : Fin R) (q : Fin 96) : EReal :=
  ∑ k : Fin 96, (d p * x (ix2 p k) - s (ix2 p k)) * W (ix2 k q)

/-- Two row families that agree entry by entry along one row have the same projection there. -/
theorem proj_congr {R R' : ℕ} (d : Fin R → EReal) (x s : (Sm R 96).Idx → EReal) (d' : Fin R' → EReal) (x' s' : (Sm R' 96).Idx → EReal)
    (W : (Sm 96 96).Idx → EReal) (p : Fin R) (p' : Fin R') (q : Fin 96)
    (hd : d p = d' p') (hx : ∀ k, x (ix2 p k) = x' (ix2 p' k)) (hs : ∀ k, s (ix2 p k) = s' (ix2 p' k)) :
    proj d x s W p q = proj d' x' s' W p' q := by
  unfold proj
  refine Finset.sum_congr rfl fun k _ => ?_
  rw [hd, hx k, hs k]

/-- The node result: forward projection plus its bias, added to the reversed projection plus its bias. -/
def nodeOut (x : (Sm 50000 96).Idx → EReal) (din dout : (Sv 50000).Idx → EReal) (sin sout : (Sm 50000 96).Idx → EReal)
    (WO WI : (Sm 96 96).Idx → EReal) (bO bI : (Sv 96).Idx → EReal) : (Sm 50000 96).Idx → EReal :=
  fun i => (proj (fun p => din (ix1 p)) x sin WO (i 0) (i 1) + bO (ix1 (i 1)))
    + (proj (fun p => dout (ix1 p)) x sout WI (i 0) (i 1) + bI (ix1 (i 1)))

/-- The edge result: the edge embeddings times the relation matrix, plus the bias. -/
def edgeOut (e : (Sm 800000 96).Idx → EReal) (W : (Sm 96 96).Idx → EReal) (b : (Sv 96).Idx → EReal) : (Sm 800000 96).Idx → EReal :=
  fun i => (∑ k : Fin 96, e (ix2 (i 0) k) * W (ix2 k (i 1))) + b (ix1 (i 1))

/-- The kernel adds its four terms left to right; the reference adds the two biased projections. Addition of
    extended reals is associative, so the two groupings are one number (no finiteness is needed). -/
theorem regroup (a b c d : EReal) : ((a + b) + c) + d = (a + b) + (c + d) := add_assoc (a + b) c d

end Cert.Spec

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.Payloads.lean ====
/-
  The two kernel bodies' stored values, read at one entry, at the ideal values.

  The node body stores, at row `y` and column `q` of its block, the forward projection of the row's message plus
  the forward bias, plus the reversed projection, plus the reversed bias, added in that order; the changes of float
  format are the identity at the ideal values, each matrix product into the zero accumulator is a plain sum over
  the 96 contracted coordinates, a degree column spread over the lanes reads its row's one entry, and a bias row
  spread down the rows reads its column's one entry. The edge body stores the plain product plus the bias row.
-/
import proofs.«105803_j40810779247267_1_alg».proof.Proof.Gen.KernelIdeal.Skeleton
import proofs.«105803_j40810779247267_1_alg».proof.Proof.Spec
import proofs.«105803_j40810779247267_1_alg».proof.Proof.LibPlainDot
import proofs.«105803_j40810779247267_1_alg».proof.Proof.LibColumn
import Idealize.ShloMosaic.Lib.ValueLayout
import Idealize.ShloMosaic.Lib.Pipeline.Value

noncomputable section

open scoped BigOperators

namespace Cert.KernelIdeal.Body

open Idealize.ShloMosaic Idealize.ShloMosaic.ValueIdx Idealize.ShloMosaic.ValueLayout
open Cert.KernelIdeal Cert.KernelIdeal.Gen Cert.Spec

/-- The node kernel's product record has the plain dimension numbers. -/
theorem plain_node : PlainDot.IsPlain dot_S5000x96_S96x96_S5000x96_1_0_0_1_n_n := ⟨rfl, rfl, rfl, rfl, rfl, rfl⟩

/-- The edge kernel's product record has the plain dimension numbers. -/
theorem plain_edge : PlainDot.IsPlain dot_S10000x96_S96x96_S10000x96_1_0_0_1_n_n := ⟨rfl, rfl, rfl, rfl, rfl, rfl⟩

/-- One biased projection of the node body at `(y, q)`: the product of the message block
    `d (y, 0) · x (y, k) − s (y, k)` with the weights, into the zero accumulator, is the projection of row `y`. -/
theorem message_product (x : Vec Ideal S5000x96 .f32) (d : Vec Ideal S5000x1 .f32) (s : Vec Ideal S5000x96 .f32)
    (W : Vec Ideal S96x96 .f32) (y : Fin 5000) (q : Fin 96) :
    matmul (F := Ideal) dot_S5000x96_S96x96_S5000x96_1_0_0_1_n_n none
        (truncf .bf16 (subf (mulf (broadcastTo S5000x96 (shapeCast S5000x1 d shapeCasts_S5000x1_S5000x1) broadcasts_S5000x1_S5000x96) x)
          (shapeCast S5000x96 s shapeCasts_S5000x96_S5000x96)) bitsLt_bf16_f32)
        (truncf .bf16 W bitsLt_bf16_f32) (constant S5000x96 .f32 0x00000000#32) (ix2 y q)
      = proj (fun p => d (ix2 p (0 : Fin 1))) x s W y q := by
  refine (PlainDot.matmul_zero_apply plain_node none _ _ y q).trans ?_
  unfold proj
  refine Finset.sum_congr rfl fun k _ => ?_
  rw [truncf_apply, truncf_apply, subf_apply, mulf_apply, shapeCast_self, shapeCast_self,
    broadcastTo_a1_ab_apply (by decide) d broadcasts_S5000x1_S5000x96 y k]

/-- A bias row spread down the 5000 rows of a block reads, at `(y, q)`, the row's entry `q`. -/
theorem bias_node (b : Vec Ideal S1x96 .f32) (y : Fin 5000) (q : Fin 96) :
    broadcastTo S5000x96 (shapeCast S1x96 b shapeCasts_S1x96_S1x96) broadcasts_S1x96_S5000x96 (ix2 y q) = b (ix2 (0 : Fin 1) q) := by
  rw [shapeCast_self]
  exact broadcastTo_1b_ab_apply b broadcasts_S1x96_S5000x96 y q

/-- THE NODE BODY at `(y, q)`: forward projection, forward bias, reversed projection, reversed bias, added left to right. -/
theorem node_pay (x0 : Vec Ideal S5000x96 .f32) (x1 : Vec Ideal S5000x1 .f32) (x5 : Vec Ideal S5000x96 .f32) (x9 : Vec Ideal S96x96 .f32)
    (x12 : Vec Ideal S1x96 .f32) (x16 : Vec Ideal S5000x1 .f32) (x20 : Vec Ideal S5000x96 .f32) (x24 : Vec Ideal S96x96 .f32)
    (x28 : Vec Ideal S1x96 .f32) (y : Fin 5000) (q : Fin 96) :
    k0_pay1 (F := Ideal) x0 x1 x5 x9 x12 x16 x20 x24 x28 (ix2 y q)
      = ((proj (fun p => x1 (ix2 p (0 : Fin 1))) x0 x5 x9 y q + x12 (ix2 (0 : Fin 1) q))
          + proj (fun p => x16 (ix2 p (0 : Fin 1))) x0 x20 x24 y q) + x28 (ix2 (0 : Fin 1) q) := by
  unfold k0_pay1
  refine (addf_apply _ _ _).trans ?_
  refine congrArg₂ (· + ·) ?_ (bias_node x28 y q)
  refine (addf_apply _ _ _).trans ?_
  refine congrArg₂ (· + ·) ?_ (message_product x0 x16 x20 x24 y q)
  refine (addf_apply _ _ _).trans ?_
  exact congrArg₂ (· + ·) (message_product x0 x1 x5 x9 y q) (bias_node x12 y q)

/-- THE EDGE BODY at `(y, q)`: the plain product of the block with the weights, plus the bias row's entry `q`. -/
theorem edge_pay (x0 : Vec Ideal S10000x96 .f32) (x2 : Vec Ideal S96x96 .f32) (x5 : Vec Ideal S1x96 .f32) (y : Fin 10000) (q : Fin 96) :
    k1_pay1 (F := Ideal) x0 x2 x5 (ix2 y q) = (∑ k : Fin 96, x0 (ix2 y k) * x2 (ix2 k q)) + x5 (ix2 (0 : Fin 1) q) := by
  unfold k1_pay1
  refine (addf_apply _ _ _).trans ?_
  refine congrArg₂ (· + ·) ?_ ?_
  · refine (PlainDot.matmul_zero_apply plain_edge none _ _ y q).trans ?_
    refine Finset.sum_congr rfl fun k _ => ?_
    rw [truncf_apply, truncf_apply]
  · rw [shapeCast_self]
    exact broadcastTo_1b_ab_apply x5 broadcasts_S1x96_S10000x96 y q

end Cert.KernelIdeal.Body

end
-- ==== Proof.NodeArray.lean ====
/-
  The first region's output array after its ten points is the node result.

  Point `t` of the grid works on rows `5000 t … 5000 t + 4999`: the five row-blocked windows (node embeddings, the two
  degree columns, the two edge sums) hold those rows of their arrays, the four whole windows (two weight matrices,
  two bias rows) hold their arrays, and the body stores the block whose entry `(y, q)` is the node result at
  `(5000 t + y, q)` — the body's four terms regrouped by associativity, a degree column's entry `(p, 0)` being the
  degree of `p` and a bias row's entry `(0, q)` the bias at `q`. Every row lies in the block of the point
  `row / 5000`, every point writes its block back, so the array ends as the node result.
-/
import proofs.«105803_j40810779247267_1_alg».proof.Proof.Gen.KernelIdeal.Frame
import proofs.«105803_j40810779247267_1_alg».proof.Proof.HostSide
import proofs.«105803_j40810779247267_1_alg».proof.Proof.Payloads
import proofs.«105803_j40810779247267_1_alg».proof.Proof.Spec
import proofs.«105803_j40810779247267_1_alg».proof.Proof.LibColumn
import Idealize.ShloMosaic.Lib.ValueLayout
import Idealize.ShloMosaic.Lib.Pipeline.Value

set_option maxRecDepth 16384

noncomputable section

open scoped BigOperators

namespace Cert.KernelIdeal.NodeArr

open Idealize.ShloMosaic Idealize.ShloMosaic.TcCoe Idealize.SL.Sem
open Idealize.ShloMosaic.ValueIdx Idealize.ShloMosaic.ValueLayout
open Idealize.ShloMosaic.Pipeline (Dat)
open Cert.KernelIdeal Cert.KernelIdeal.Gen Cert.KernelIdeal.HostSide Cert.KernelIdeal.Body Cert.Spec

theorem hz : (![0, 0] : Fin 2 → Nat) = fun _ => 0 := funext fun a => by fin_cases a <;> rfl

/-! ## The printed index maps over the ten points

A row-blocked window is at block row `t` and block column 0; a whole window is at its one block. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-! ## Each input window's block, read at an entry -/

section Blocks

variable {F : FTy → Type} [FloatOps F]
variable (V : (c : Dev nD) → (b : Ref sig .tc) → Buf (Elt F) ((c : Thread nD τ).loc b))

/-- The node embeddings' block at point `t` holds rows `5000 t … 5000 t + 4999` of the array. -/
theorem blk0_0 (c : Dev nD) (t : Fin cfg0.N) (y : Fin 5000) (k : Fin 96) (hP : 5000 * t.val + y.val < 50000) :
    (iblk0 V c 0 t : Vec F S5000x96 .f32) (ix2 y k) = (V c main_arg0 : Vec F S50000x96 .f32) (ix2 ⟨5000 * t.val + y.val, hP⟩ k) := by
  unfold iblk0
  rw [View.read_apply]
  show V c main_arg0 _ = V c main_arg0 _
  congr 1
  funext a
  apply Fin.ext
  match a with
  | ⟨0, _⟩ => show win0_0.index t (0 : Fin 2) * 5000 + 1 * y.val = 5000 * t.val + y.val; rw [(idx0_0 t).1]; omega
  | ⟨1, _⟩ => show win0_0.index t (1 : Fin 2) * 96 + 1 * k.val = k.val; rw [(idx0_0 t).2]; omega

/-- The in-degree column's block at point `t` holds the same rows of the column. -/
theorem blk0_1 (c : Dev nD) (t : Fin cfg0.N) (y : Fin 5000) (k : Fin 1) (hP : 5000 * t.val + y.val < 50000) :
    (iblk0 V c 1 t : Vec F S5000x1 .f32) (ix2 y k) = (V c main_v13 : Vec F S50000x1 .f32) (ix2 ⟨5000 * t.val + y.val, hP⟩ k) := by
  unfold iblk0
  rw [View.read_apply]
  show V c main_v13 _ = V c main_v13 _
  congr 1
  funext a
  apply Fin.ext
  match a with
  | ⟨0, _⟩ => show win0_1.index t (0 : Fin 2) * 5000 + 1 * y.val = 5000 * t.val + y.val; rw [(idx0_1 t).1]; omega
  | ⟨1, _⟩ => show win0_1.index t (1 : Fin 2) * 1 + 1 * k.val = k.val; rw [(idx0_1 t).2]; omega

/-- The incoming edge sums' block at point `t` holds the same rows of the sums. -/
theorem blk0_2 (c : Dev nD) (t : Fin cfg0.N) (y : Fin 5000) (k : Fin 96) (hP : 5000 * t.val + y.val < 50000) :
    (iblk0 V c 2 t : Vec F S5000x96 .f32) (ix2 y k) = (V c main_v6 : Vec F S50000x96 .f32) (ix2 ⟨5000 * t.val + y.val, hP⟩ k) := by
  unfold iblk0
  rw [View.read_apply]
  show V c main_v6 _ = V c main_v6 _
  congr 1
  funext a
  apply Fin.ext
  match a with
  | ⟨0, _⟩ => show win0_2.index t (0 : Fin 2) * 5000 + 1 * y.val = 5000 * t.val + y.val; rw [(idx0_2 t).1]; omega
  | ⟨1, _⟩ => show win0_2.index t (1 : Fin 2) * 96 + 1 * k.val = k.val; rw [(idx0_2 t).2]; omega

/-- The out-degree column's block at point `t` holds the same rows of the column. -/
theorem blk0_3 (c : Dev nD) (t : Fin cfg0.N) (y : Fin 5000) (k : Fin 1) (hP : 5000 * t.val + y.val < 50000) :
    (iblk0 V c 3 t : Vec F S5000x1 .f32) (ix2 y k) = (V c main_v14 : Vec F S50000x1 .f32) (ix2 ⟨5000 * t.val + y.val, hP⟩ k) := by
  unfold iblk0
  rw [View.read_apply]
  show V c main_v14 _ = V c main_v14 _
  congr 1
  funext a
  apply Fin.ext
  match a with
  | ⟨0, _⟩ => show win0_3.index t (0 : Fin 2) * 5000 + 1 * y.val = 5000 * t.val + y.val; rw [(idx0_3 t).1]; omega
  | ⟨1, _⟩ => show win0_3.index t (1 : Fin 2) * 1 + 1 * k.val = k.val; rw [(idx0_3 t).2]; omega

/-- The outgoing edge sums' block at point `t` holds the same rows of the sums. -/
theorem blk0_4 (c : Dev nD) (t : Fin cfg0.N) (y : Fin 5000) (k : Fin 96) (hP : 5000 * t.val + y.val < 50000) :
    (iblk0 V c 4 t : Vec F S5000x96 .f32) (ix2 y k) = (V c main_v12 : Vec F S50000x96 .f32) (ix2 ⟨5000 * t.val + y.val, hP⟩ k) := by
  unfold iblk0
  rw [View.read_apply]
  show V c main_v12 _ = V c main_v12 _
  congr 1
  funext a
  apply Fin.ext
  match a with
  | ⟨0, _⟩ => show win0_4.index t (0 : Fin 2) * 5000 + 1 * y.val = 5000 * t.val + y.val; rw [(idx0_4 t).1]; omega
  | ⟨1, _⟩ => show win0_4.index t (1 : Fin 2) * 96 + 1 * k.val = k.val; rw [(idx0_4 t).2]; omega

/-- The forward weights' one block is the whole matrix. -/
theorem blk0_5 (c : Dev nD) (t : Fin cfg0.N) : (iblk0 V c 5 t : Vec F S96x96 .f32) = (V c main_arg4 : Vec F S96x96 .f32) := by
  funext j
  unfold iblk0
  rw [View.read_apply]
  show V c main_arg4 _ = V c main_arg4 _
  congr 1
  funext a
  apply Fin.ext
  match a with
  | ⟨0, _⟩ => show win0_5.index t (0 : Fin 2) * 96 + 1 * (j 0).val = (j 0).val; rw [(idx0_5 t).1]; omega
  | ⟨1, _⟩ => show win0_5.index t (1 : Fin 2) * 96 + 1 * (j 1).val = (j 1).val; rw [(idx0_5 t).2]; omega

/-- The forward bias row's one block is the whole row. -/
theorem blk0_6 (c : Dev nD) (t : Fin cfg0.N) : (iblk0 V c 6 t : Vec F S1x96 .f32) = (V c main_v15 : Vec F S1x96 .f32) := by
  funext j
  unfold iblk0
  rw [View.read_apply]
  show V c main_v15 _ = V c main_v15 _
  congr 1
  funext a
  apply Fin.ext
  match a with
  | ⟨0, _⟩ => show win0_6.index t (0 : Fin 2) * 1 + 1 * (j 0).val = (j 0).val; rw [(idx0_6 t).1]; omega
  | ⟨1, _⟩ => show win0_6.index t (1 : Fin 2) * 96 + 1 * (j 1).val = (j 1).val; rw [(idx0_6 t).2]; omega

/-- The reversed weights' one block is the whole matrix. -/
theorem blk0_7 (c : Dev nD) (t : Fin cfg0.N) : (iblk0 V c 7 t : Vec F S96x96 .f32) = (V c main_arg6 : Vec F S96x96 .f32) := by
  funext j
  unfold iblk0
  rw [View.read_apply]
  show V c main_arg6 _ = V c main_arg6 _
  congr 1
  funext a
  apply Fin.ext
  match a with
  | ⟨0, _⟩ => show win0_7.index t (0 : Fin 2) * 96 + 1 * (j 0).val = (j 0).val; rw [(idx0_7 t).1]; omega
  | ⟨1, _⟩ => show win0_7.index t (1 : Fin 2) * 96 + 1 * (j 1).val = (j 1).val; rw [(idx0_7 t).2]; omega

/-- The reversed bias row's one block is the whole row. -/
theorem blk0_8 (c : Dev nD) (t : Fin cfg0.N) : (iblk0 V c 8 t : Vec F S1x96 .f32) = (V c main_v16 : Vec F S1x96 .f32) := by
  funext j
  unfold iblk0
  rw [View.read_apply]
  show V c main_v16 _ = V c main_v16 _
  congr 1
  funext a
  apply Fin.ext
  match a with
  | ⟨0, _⟩ => show win0_8.index t (0 : Fin 2) * 1 + 1 * (j 0).val = (j 0).val; rw [(idx0_8 t).1]; omega
  | ⟨1, _⟩ => show win0_8.index t (1 : Fin 2) * 96 + 1 * (j 1).val = (j 1).val; rw [(idx0_8 t).2]; omega

end Blocks

/-! ## The output window's block -/

/-- Entry `(y, q)` of the output window's block at point `t` is entry `(5000 t + y, q)` of the array. -/
theorem emb9 (t : Fin cfg0.N) (y : Fin 5000) (q : Fin 96) (hP : 5000 * t.val + y.val < 50000) :
    ((cfg0.win 9).blk t).view.emb (ix2 y q) = (ix2 ⟨5000 * t.val + y.val, hP⟩ q : S50000x96.Idx) := by
  funext a
  apply Fin.ext
  match a with
  | ⟨0, _⟩ => show win0_9.index t (0 : Fin 2) * 5000 + 1 * y.val = 5000 * t.val + y.val; rw [(idx0_9 t).1]; omega
  | ⟨1, _⟩ => show win0_9.index t (1 : Fin 2) * 96 + 1 * q.val = q.val; rw [(idx0_9 t).2]; omega

/-- A row of a block is a row of the array. -/
theorem row_lt (t : Fin cfg0.N) (y : Fin 5000) : 5000 * t.val + y.val < 50000 := by
  have ht : t.val < 10 := lt_of_lt_of_eq t.isLt N_0
  have hy := y.isLt
  omega

/-- Two descriptions of point `t`'s block of the output agree when they agree entry by entry: the block's entry
    `(y, q)` is the array's entry `(5000 t + y, q)`. -/
theorem block9_ext (t : Fin cfg0.N) (K : S5000x96.Idx → EReal) (G : S50000x96.Idx → EReal)
    (h : ∀ (y : Fin 5000) (q : Fin 96) (hP : 5000 * t.val + y.val < 50000), K (ix2 y q) = G (ix2 ⟨5000 * t.val + y.val, hP⟩ q)) :
    (cfg0.win 9).cut (grid0.coords t) K = ((cfg0.win 9).blk t).view.read (Elt Ideal) G := by
  funext j
  obtain ⟨y, q, rfl⟩ : ∃ (y : Fin 5000) (q : Fin 96), j = ix2 y q := ⟨j 0, j 1, eq_ix2 j⟩
  rw [View.read_apply, emb9 t y q (row_lt t y)]
  exact h y q (row_lt t y)

variable (m : (ℓ : Loc nD τ sig) → Buf (Elt Ideal) ℓ) (ρ : Dev nD → PrngReg)

/-- The node result, of the launch contents: the specification at the host's degrees and edge sums. -/
abbrev nodeResult (c : Dev nD) : S50000x96.Idx → EReal :=
  nodeOut (m ((c : Thread nD τ).loc main_arg0))
    (degOf (F := Ideal) (m ((c : Thread nD τ).loc main_arg3))) (degOf (F := Ideal) (m ((c : Thread nD τ).loc main_arg2)))
    (sumOf (F := Ideal) (m ((c : Thread nD τ).loc main_arg1)) (m ((c : Thread nD τ).loc main_arg3)))
    (sumOf (F := Ideal) (m ((c : Thread nD τ).loc main_arg1)) (m ((c : Thread nD τ).loc main_arg2)))
    (m ((c : Thread nD τ).loc main_arg4)) (m ((c : Thread nD τ).loc main_arg6))
    (m ((c : Thread nD τ).loc main_arg5)) (m ((c : Thread nD τ).loc main_arg7))

/-- WHAT POINT `t` WRITES BACK is block `t` of the node result. -/
theorem flushed_node (c : Dev nD) (t : Fin cfg0.N) :
    (dat0 (V1 m ρ) c).flushed 9 t = ((cfg0.win 9).blk t).view.read (Elt Ideal) (nodeResult m c) := by
  show (cfg0.win 9).cut (grid0.coords t) ((dat0 (V1 m ρ) c).after 9 t) = _
  rw [after0_9]
  unfold out0_9
  rw [View.canon_unit_zero hz]
  simp only [View.ld_unit_zero (S := S5000x96) hz, View.ld_unit_zero (S := S5000x1) hz, View.ld_unit_zero (S := S96x96) hz,
    View.ld_unit_zero (S := S1x96) hz]
  refine block9_ext t _ _ fun y q hP => ?_
  refine (node_pay (iblk0 (V1 m ρ) c 0 t) (iblk0 (V1 m ρ) c 1 t) (iblk0 (V1 m ρ) c 2 t) (iblk0 (V1 m ρ) c 5 t) (iblk0 (V1 m ρ) c 6 t)
    (iblk0 (V1 m ρ) c 3 t) (iblk0 (V1 m ρ) c 4 t) (iblk0 (V1 m ρ) c 7 t) (iblk0 (V1 m ρ) c 8 t) y q).trans ?_
  rw [blk0_5 (V1 m ρ) c t, blk0_6 (V1 m ρ) c t, blk0_7 (V1 m ρ) c t, blk0_8 (V1 m ρ) c t,
    V1_arg4, V1_v15, V1_arg6, V1_v16, regroup]
  unfold nodeResult nodeOut
  refine congrArg₂ (· + ·) (congrArg₂ (· + ·) ?_ ?_) (congrArg₂ (· + ·) ?_ ?_)
  · refine proj_congr _ _ _ _ _ _ _ y ⟨5000 * t.val + y.val, hP⟩ q ?_ (fun k => ?_) (fun k => ?_)
    · beta_reduce
      rw [blk0_1 (V1 m ρ) c t y 0 hP, V1_v13]
      exact shapeCast_a_a1_apply _ shapeCasts_S50000_S50000x1 ⟨5000 * t.val + y.val, hP⟩ 0
    · rw [blk0_0 (V1 m ρ) c t y k hP, V1_arg0]
    · rw [blk0_2 (V1 m ρ) c t y k hP, V1_v6]
  · exact shapeCast_a_1a_apply _ shapeCasts_S96_S1x96 0 q
  · refine proj_congr _ _ _ _ _ _ _ y ⟨5000 * t.val + y.val, hP⟩ q ?_ (fun k => ?_) (fun k => ?_)
    · beta_reduce
      rw [blk0_3 (V1 m ρ) c t y 0 hP, V1_v14]
      exact shapeCast_a_a1_apply _ shapeCasts_S50000_S50000x1 ⟨5000 * t.val + y.val, hP⟩ 0
    · rw [blk0_0 (V1 m ρ) c t y k hP, V1_arg0]
    · rw [blk0_4 (V1 m ρ) c t y k hP, V1_v12]
  · exact shapeCast_a_1a_apply _ shapeCasts_S96_S1x96 0 q

/-! ## The blocks cover the array -/

/-- An index of the array is in point `t`'s block iff its row is among the block's 5000 rows. -/
theorem mem_blk9 (t : Fin cfg0.N) (i : S50000x96.Idx) :
    i ∈ ((cfg0.win 9).blk t).view.set ↔ ∀ a : Fin 2, win0_9.index t a * S5000x96.size a ≤ (i a).val ∧ (i a).val < win0_9.index t a * S5000x96.size a + S5000x96.size a := by
  show i ∈ ((View.whole main_v18).slice (win0_9.rect t)).set ↔ _
  rw [View.set_slice_whole, Rect.mem_set_unit]
  exact Iff.rfl

/-- Every entry of the array is in the block of the point `row / 5000`, which is written back. -/
theorem cover_node (i : S50000x96.Idx) :
    ∃ t : Fin cfg0.N, (cfg0.win 9).flush t = true ∧ i ∈ ((cfg0.win 9).blk t).view.set := by
  have hi0 : (i 0).val < 50000 := (i 0).isLt
  have hi1 : (i 1).val < 96 := (i 1).isLt
  have hN : cfg0.N = 10 := N_0
  refine ⟨⟨(i 0).val / 5000, by rw [hN]; omega⟩, flush0_9 _, ?_⟩
  rw [mem_blk9]
  intro a
  match a with
  | ⟨0, _⟩ =>
    show win0_9.index _ (0 : Fin 2) * 5000 ≤ (i 0).val ∧ (i 0).val < win0_9.index _ (0 : Fin 2) * 5000 + 5000
    rw [(idx0_9 _).1]
    show (i 0).val / 5000 * 5000 ≤ (i 0).val ∧ (i 0).val < (i 0).val / 5000 * 5000 + 5000
    omega
  | ⟨1, _⟩ =>
    show win0_9.index _ (1 : Fin 2) * 96 ≤ (i 1).val ∧ (i 1).val < win0_9.index _ (1 : Fin 2) * 96 + 96
    rw [(idx0_9 _).2]
    omega

/-- THE ARRAY after the ten points is the node result. -/
theorem final_node (c : Dev nD) : (dat0 (V1 m ρ) c).arrAt 9 cfg0.N = nodeResult m c :=
  (dat0 (V1 m ρ) c).arrAt_eq_of_cover 9 (nodeResult m c) (fun t _ => flushed_node m ρ c t) cover_node

end Cert.KernelIdeal.NodeArr

end
-- ==== Proof.EdgeArray.lean ====
/-
  The second region's output array after its eighty points is the edge result.

  Point `t` works on rows `10000 t … 10000 t + 9999` of the edge embeddings; the relation matrix and the bias row are
  whole windows. The body stores the block whose entry `(y, q)` is the plain product of row `10000 t + y` with the
  matrix, plus the bias at `q` (the bias row's entry `(0, q)`). Every row lies in the block of the point
  `row / 10000`, every point writes its block back, so the array ends as the edge result.
-/
import proofs.«105803_j40810779247267_1_alg».proof.Proof.Gen.KernelIdeal.Frame
import proofs.«105803_j40810779247267_1_alg».proof.Proof.HostSide
import proofs.«105803_j40810779247267_1_alg».proof.Proof.Payloads
import proofs.«105803_j40810779247267_1_alg».proof.Proof.Spec
import Idealize.ShloMosaic.Lib.ValueLayout
import Idealize.ShloMosaic.Lib.Pipeline.Value

set_option maxRecDepth 16384

noncomputable section

open scoped BigOperators

namespace Cert.KernelIdeal.EdgeArr

open Idealize.ShloMosaic Idealize.ShloMosaic.TcCoe Idealize.SL.Sem
open Idealize.ShloMosaic.ValueIdx Idealize.ShloMosaic.ValueLayout
open Idealize.ShloMosaic.Pipeline (Dat)
open Cert.KernelIdeal Cert.KernelIdeal.Gen Cert.KernelIdeal.HostSide Cert.KernelIdeal.Body Cert.Spec

theorem hz : (![0, 0] : Fin 2 → Nat) = fun _ => 0 := funext fun a => by fin_cases a <;> rfl

/-! ## The printed index maps over the eighty points -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)

/-! ## Each input window's block, read at an entry -/

section Blocks

variable {F : FTy → Type} [FloatOps F]
variable (V : (c : Dev nD) → (b : Ref sig .tc) → Buf (Elt F) ((c : Thread nD τ).loc b))

/-- The edge embeddings' block at point `t` holds rows `10000 t … 10000 t + 9999` of the array. -/
theorem blk1_0 (c : Dev nD) (t : Fin cfg1.N) (y : Fin 10000) (k : Fin 96) (hP : 10000 * t.val + y.val < 800000) :
    (iblk1 V c 0 t : Vec F S10000x96 .f32) (ix2 y k) = (V c main_arg1 : Vec F S800000x96 .f32) (ix2 ⟨10000 * t.val + y.val, hP⟩ k) := by
  unfold iblk1
  rw [View.read_apply]
  show V c main_arg1 _ = V c main_arg1 _
  congr 1
  funext a
  apply Fin.ext
  match a with
  | ⟨0, _⟩ => show win1_0.index t (0 : Fin 2) * 10000 + 1 * y.val = 10000 * t.val + y.val; rw [(idx1_0 t).1]; omega
  | ⟨1, _⟩ => show win1_0.index t (1 : Fin 2) * 96 + 1 * k.val = k.val; rw [(idx1_0 t).2]; omega

/-- The relation weights' one block is the whole matrix. -/
theorem blk1_1 (c : Dev nD) (t : Fin cfg1.N) : (iblk1 V c 1 t : Vec F S96x96 .f32) = (V c main_arg8 : Vec F S96x96 .f32) := by
  funext j
  unfold iblk1
  rw [View.read_apply]
  show V c main_arg8 _ = V c main_arg8 _
  congr 1
  funext a
  apply Fin.ext
  match a with
  | ⟨0, _⟩ => show win1_1.index t (0 : Fin 2) * 96 + 1 * (j 0).val = (j 0).val; rw [(idx1_1 t).1]; omega
  | ⟨1, _⟩ => show win1_1.index t (1 : Fin 2) * 96 + 1 * (j 1).val = (j 1).val; rw [(idx1_1 t).2]; omega

/-- The relation bias row's one block is the whole row. -/
theorem blk1_2 (c : Dev nD) (t : Fin cfg1.N) : (iblk1 V c 2 t : Vec F S1x96 .f32) = (V c main_v17 : Vec F S1x96 .f32) := by
  funext j
  unfold iblk1
  rw [View.read_apply]
  show V c main_v17 _ = V c main_v17 _
  congr 1
  funext a
  apply Fin.ext
  match a with
  | ⟨0, _⟩ => show win1_2.index t (0 : Fin 2) * 1 + 1 * (j 0).val = (j 0).val; rw [(idx1_2 t).1]; omega
  | ⟨1, _⟩ => show win1_2.index t (1 : Fin 2) * 96 + 1 * (j 1).val = (j 1).val; rw [(idx1_2 t).2]; omega

end Blocks

/-! ## The output window's block -/

/-- Entry `(y, q)` of the output window's block at point `t` is entry `(10000 t + y, q)` of the array. -/
theorem emb3 (t : Fin cfg1.N) (y : Fin 10000) (q : Fin 96) (hP : 10000 * t.val + y.val < 800000) :
    ((cfg1.win 3).blk t).view.emb (ix2 y q) = (ix2 ⟨10000 * t.val + y.val, hP⟩ q : S800000x96.Idx) := by
  funext a
  apply Fin.ext
  match a with
  | ⟨0, _⟩ => show win1_3.index t (0 : Fin 2) * 10000 + 1 * y.val = 10000 * t.val + y.val; rw [(idx1_3 t).1]; omega
  | ⟨1, _⟩ => show win1_3.index t (1 : Fin 2) * 96 + 1 * q.val = q.val; rw [(idx1_3 t).2]; omega

/-- A row of a block is a row of the array. -/
theorem row_lt (t : Fin cfg1.N) (y : Fin 10000) : 10000 * t.val + y.val < 800000 := by
  have ht : t.val < 80 := lt_of_lt_of_eq t.isLt N_1
  have hy := y.isLt
  omega

/-- Two descriptions of point `t`'s block of the output agree when they agree entry by entry. -/
theorem block3_ext (t : Fin cfg1.N) (K : S10000x96.Idx → EReal) (G : S800000x96.Idx → EReal)
    (h : ∀ (y : Fin 10000) (q : Fin 96) (hP : 10000 * t.val + y.val < 800000), K (ix2 y q) = G (ix2 ⟨10000 * t.val + y.val, hP⟩ q)) :
    (cfg1.win 3).cut (grid1.coords t) K = ((cfg1.win 3).blk t).view.read (Elt Ideal) G := by
  funext j
  obtain ⟨y, q, rfl⟩ : ∃ (y : Fin 10000) (q : Fin 96), j = ix2 y q := ⟨j 0, j 1, eq_ix2 j⟩
  rw [View.read_apply, emb3 t y q (row_lt t y)]
  exact h y q (row_lt t y)

variable (m : (ℓ : Loc nD τ sig) → Buf (Elt Ideal) ℓ) (ρ : Dev nD → PrngReg)

/-- The edge result, of the launch contents. -/
abbrev edgeResult (c : Dev nD) : S800000x96.Idx → EReal :=
  edgeOut (m ((c : Thread nD τ).loc main_arg1)) (m ((c : Thread nD τ).loc main_arg8)) (m ((c : Thread nD τ).loc main_arg9))

/-- WHAT POINT `t` WRITES BACK is block `t` of the edge result. -/
theorem flushed_edge (c : Dev nD) (t : Fin cfg1.N) :
    (dat1 (V2 m ρ) c).flushed 3 t = ((cfg1.win 3).blk t).view.read (Elt Ideal) (edgeResult m c) := by
  show (cfg1.win 3).cut (grid1.coords t) ((dat1 (V2 m ρ) c).after 3 t) = _
  rw [after1_3]
  unfold out1_3
  rw [View.canon_unit_zero hz]
  simp only [View.ld_unit_zero (S := S10000x96) hz, View.ld_unit_zero (S := S96x96) hz, View.ld_unit_zero (S := S1x96) hz]
  refine block3_ext t _ _ fun y q hP => ?_
  refine (edge_pay (iblk1 (V2 m ρ) c 0 t) (iblk1 (V2 m ρ) c 1 t) (iblk1 (V2 m ρ) c 2 t) y q).trans ?_
  rw [blk1_1 (V2 m ρ) c t, blk1_2 (V2 m ρ) c t, V2_arg8, V2_v17]
  unfold edgeResult edgeOut
  refine congrArg₂ (· + ·) (Finset.sum_congr rfl fun k _ => ?_) ?_
  · rw [blk1_0 (V2 m ρ) c t y k hP, V2_arg1]
  · exact shapeCast_a_1a_apply _ shapeCasts_S96_S1x96 0 q

/-! ## The blocks cover the array -/

/-- An index of the array is in point `t`'s block iff its row is among the block's 10000 rows. -/
theorem mem_blk3 (t : Fin cfg1.N) (i : S800000x96.Idx) :
    i ∈ ((cfg1.win 3).blk t).view.set ↔ ∀ a : Fin 2, win1_3.index t a * S10000x96.size a ≤ (i a).val ∧ (i a).val < win1_3.index t a * S10000x96.size a + S10000x96.size a := by
  show i ∈ ((View.whole main_v19).slice (win1_3.rect t)).set ↔ _
  rw [View.set_slice_whole, Rect.mem_set_unit]
  exact Iff.rfl

/-- Every entry of the array is in the block of the point `row / 10000`, which is written back. -/
theorem cover_edge (i : S800000x96.Idx) :
    ∃ t : Fin cfg1.N, (cfg1.win 3).flush t = true ∧ i ∈ ((cfg1.win 3).blk t).view.set := by
  have hi0 : (i 0).val < 800000 := (i 0).isLt
  have hi1 : (i 1).val < 96 := (i 1).isLt
  have hN : cfg1.N = 80 := N_1
  refine ⟨⟨(i 0).val / 10000, by rw [hN]; omega⟩, flush1_3 _, ?_⟩
  rw [mem_blk3]
  intro a
  match a with
  | ⟨0, _⟩ =>
    show win1_3.index _ (0 : Fin 2) * 10000 ≤ (i 0).val ∧ (i 0).val < win1_3.index _ (0 : Fin 2) * 10000 + 10000
    rw [(idx1_3 _).1]
    show (i 0).val / 10000 * 10000 ≤ (i 0).val ∧ (i 0).val < (i 0).val / 10000 * 10000 + 10000
    omega
  | ⟨1, _⟩ =>
    show win1_3.index _ (1 : Fin 2) * 96 ≤ (i 1).val ∧ (i 1).val < win1_3.index _ (1 : Fin 2) * 96 + 96
    rw [(idx1_3 _).2]
    omega

/-- THE ARRAY after the eighty points is the edge result. -/
theorem final_edge (c : Dev nD) : (dat1 (V2 m ρ) c).arrAt 3 cfg1.N = edgeResult m c :=
  (dat1 (V2 m ρ) c).arrAt_eq_of_cover 3 (edgeResult m c) (fun t _ => flushed_edge m ρ c t) cover_edge

end Cert.KernelIdeal.EdgeArr

end
-- ==== Proof.KernelRun.lean ====
/-
  The idealized kernel's run with its results named.

  After the launch the node result buffer holds what the first region's write-backs left, which is the node result,
  and the edge result buffer holds what the second region's write-backs left, which is the edge result; the
  arguments are as launched.
-/
import proofs.«105803_j40810779247267_1_alg».proof.Proof.NamedRun
import proofs.«105803_j40810779247267_1_alg».proof.Proof.NodeArray
import proofs.«105803_j40810779247267_1_alg».proof.Proof.EdgeArray

noncomputable section

namespace Cert.KernelIdeal.Run

open Idealize.ShloMosaic Idealize.ShloMosaic.TcCoe Idealize.SL.Sem
open Cert.KernelIdeal Cert.KernelIdeal.Gen Cert.KernelIdeal.GenRun Cert.KernelIdeal.NodeArr Cert.KernelIdeal.EdgeArr

variable (m : (ℓ : Loc nD τ sig) → Buf (Elt Ideal) ℓ) (ρ : Dev nD → PrngReg)

/-- Every weakly fair execution of the idealized kernel terminates, nothing faulting, with the node result buffer
    at the node result, the edge result buffer at the edge result, and the arguments unchanged. -/
theorem run : θ_run (defs (F := Ideal)) (onTc (τ := τ) (main (F := Ideal))) ⟨m, fun _ => 0, ρ⟩ (fun r => ∀ c : Dev nD,
      r.2.mem ((c.tc : Thread nD τ).loc main_v18) = nodeResult m c
      ∧ r.2.mem ((c.tc : Thread nD τ).loc main_v19) = edgeResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c).1.trans ((W3_node m ρ c).trans (final_node m ρ c)),
       (h c).2.1.trans ((W3_edge m ρ c).trans (final_edge m ρ c)),
       (h c).2.2⟩)
    (run_named m ρ)

end Cert.KernelIdeal.Run

end
-- ==== Proof.RefSide.lean ====
/-
  The reference's two results are the specification's functions.

  Read entry by entry, the reference's node result at `(p, q)` is the forward biased projection added to the
  reversed biased projection: each general product with a weight matrix is the sum over the 96 contracted
  coordinates; the degree vector broadcast to a column and then along the rows reads, at `(p, k)`, the degree of
  row `p`; a bias vector broadcast to a row and then down the rows reads, at `(p, q)`, its entry `q`. The degrees and
  edge sums are the reference's own scatter stages, left unopened. The edge result is the plain product plus the
  bias entry.
-/
import proofs.«105803_j40810779247267_1_alg».proof.Proof.Gen.ReferenceIdeal.Read
import proofs.«105803_j40810779247267_1_alg».proof.Proof.Spec

noncomputable section

open scoped BigOperators

namespace Cert.ReferenceIdeal.RefValue

open Idealize.ShloMosaic Idealize.ShloMosaic.ValueIdx
open Cert.ReferenceIdeal Cert.ReferenceIdeal.Read Cert.Spec

/-! ## The composed index functions, as coordinates -/

theorem lidx21 (p : Fin 50000) (q k : Fin 96) : lidx_main_v21 (ix2 p q) k = ix2 p k :=
  funext fun a => by match a with | ⟨0, _⟩ => rfl | ⟨1, _⟩ => rfl
theorem ridx21 (p : Fin 50000) (q k : Fin 96) : ridx_main_v21 (ix2 p q) k = ix2 k q :=
  funext fun a => by match a with | ⟨0, _⟩ => rfl | ⟨1, _⟩ => rfl
theorem lidx25 (p : Fin 50000) (q k : Fin 96) : lidx_main_v25 (ix2 p q) k = ix2 p k :=
  funext fun a => by match a with | ⟨0, _⟩ => rfl | ⟨1, _⟩ => rfl
theorem ridx25 (p : Fin 50000) (q k : Fin 96) : ridx_main_v25 (ix2 p q) k = ix2 k q :=
  funext fun a => by match a with | ⟨0, _⟩ => rfl | ⟨1, _⟩ => rfl
theorem lidx30 (p : Fin 800000) (q k : Fin 96) : lidx_main_v30 (ix2 p q) k = ix2 p k :=
  funext fun a => by match a with | ⟨0, _⟩ => rfl | ⟨1, _⟩ => rfl
theorem ridx30 (p : Fin 800000) (q k : Fin 96) : ridx_main_v30 (ix2 p q) k = ix2 k q :=
  funext fun a => by match a with | ⟨0, _⟩ => rfl | ⟨1, _⟩ => rfl
/-- The degree read through its two broadcasts: the row's own entry. -/
theorem deg_in_idx (p : Fin 50000) (k : Fin 96) : idx_main_v7 (idx_main_v8 (ix2 p k)) = ix1 p :=
  funext fun a => by match a with | ⟨0, _⟩ => rfl
theorem deg_out_idx (p : Fin 50000) (k : Fin 96) : idx_main_v17 (idx_main_v18 (ix2 p k)) = ix1 p :=
  funext fun a => by match a with | ⟨0, _⟩ => rfl
/-- A bias read through its two broadcasts: the column's entry. -/
theorem bias_O_idx (p : Fin 50000) (q : Fin 96) : idx_main_v22 (idx_main_v23 (ix2 p q)) = ix1 q :=
  funext fun a => by match a with | ⟨0, _⟩ => rfl
theorem bias_I_idx (p : Fin 50000) (q : Fin 96) : idx_main_v26 (idx_main_v27 (ix2 p q)) = ix1 q :=
  funext fun a => by match a with | ⟨0, _⟩ => rfl
theorem bias_rel_idx (p : Fin 800000) (q : Fin 96) : idx_main_v31 (idx_main_v32 (ix2 p q)) = ix1 q :=
  funext fun a => by match a with | ⟨0, _⟩ => rfl

/-! ## The two results -/

/-- Row `p`'s forward message in coordinate `k`: its in-degree times its embedding, less the incoming edge sum. -/
theorem forward_message (x0 : FVec Ideal S50000x96 .f32) (x1 : FVec Ideal S800000x96 .f32) (x3 : IVec S800000 32) (p : Fin 50000) (k : Fin 96) :
    val_main_v10 (F := Ideal) x0 x1 x3 (ix2 p k)
      = val_main_v3 (F := Ideal) x3 (ix1 p) * x0 (ix2 p k) - val_main_v6 (F := Ideal) x1 x3 (ix2 p k) := by
  rw [val_main_v10_apply, val_main_v9_apply, val_main_v8_apply, val_main_v7_apply, deg_in_idx]
  rfl

/-- Row `p`'s reversed message in coordinate `k`: its out-degree times its embedding, less the outgoing edge sum. -/
theorem reversed_message (x0 : FVec Ideal S50000x96 .f32) (x1 : FVec Ideal S800000x96 .f32) (x2 : IVec S800000 32) (p : Fin 50000) (k : Fin 96) :
    val_main_v20 (F := Ideal) x0 x1 x2 (ix2 p k)
      = val_main_v13 (F := Ideal) x2 (ix1 p) * x0 (ix2 p k) - val_main_v16 (F := Ideal) x1 x2 (ix2 p k) := by
  rw [val_main_v20_apply, val_main_v19_apply, val_main_v18_apply, val_main_v17_apply, deg_out_idx]
  rfl

/-- The forward general product at `(p, q)` is the projection of row `p`'s forward message. -/
theorem forward_product (x0 : FVec Ideal S50000x96 .f32) (x1 : FVec Ideal S800000x96 .f32) (x3 : IVec S800000 32) (x4 : FVec Ideal S96x96 .f32)
    (p : Fin 50000) (q : Fin 96) :
    val_main_v21 (F := Ideal) x0 x1 x3 x4 (ix2 p q)
      = proj (fun p => val_main_v3 (F := Ideal) x3 (ix1 p)) x0 (val_main_v6 (F := Ideal) x1 x3) x4 p q := by
  rw [val_main_v21_apply]
  unfold proj
  refine Finset.sum_congr rfl fun k _ => ?_
  rw [lidx21, ridx21, forward_message]

/-- The reversed general product at `(p, q)` is the projection of row `p`'s reversed message. -/
theorem reversed_product (x0 : FVec Ideal S50000x96 .f32) (x1 : FVec Ideal S800000x96 .f32) (x2 : IVec S800000 32) (x6 : FVec Ideal S96x96 .f32)
    (p : Fin 50000) (q : Fin 96) :
    val_main_v25 (F := Ideal) x0 x1 x2 x6 (ix2 p q)
      = proj (fun p => val_main_v13 (F := Ideal) x2 (ix1 p)) x0 (val_main_v16 (F := Ideal) x1 x2) x6 p q := by
  rw [val_main_v25_apply]
  unfold proj
  refine Finset.sum_congr rfl fun k _ => ?_
  rw [lidx25, ridx25, reversed_message]

/-- THE NODE RESULT of the reference is the specification's, at its own degree and edge-sum stages. -/
theorem node_ref (x0 : FVec Ideal S50000x96 .f32) (x1 : FVec Ideal S800000x96 .f32) (x2 x3 : IVec S800000 32)
    (x4 : FVec Ideal S96x96 .f32) (x5 : FVec Ideal S96 .f32) (x6 : FVec Ideal S96x96 .f32) (x7 : FVec Ideal S96 .f32) :
    val_main_v29 (F := Ideal) x0 x1 x2 x3 x4 x5 x6 x7
      = nodeOut x0 (val_main_v3 (F := Ideal) x3) (val_main_v13 (F := Ideal) x2) (val_main_v6 (F := Ideal) x1 x3) (val_main_v16 (F := Ideal) x1 x2) x4 x6 x5 x7 := by
  funext i
  obtain ⟨p, q, rfl⟩ : ∃ (p : Fin 50000) (q : Fin 96), i = ix2 p q := ⟨i 0, i 1, eq_ix2 i⟩
  rw [val_main_v29_apply, val_main_v24_apply, val_main_v28_apply, forward_product, reversed_product,
    val_main_v23_apply, val_main_v22_apply, val_main_v27_apply, val_main_v26_apply, bias_O_idx, bias_I_idx]
  rfl

/-- THE EDGE RESULT of the reference is the specification's. -/
theorem edge_ref (x1 : FVec Ideal S800000x96 .f32) (x8 : FVec Ideal S96x96 .f32) (x9 : FVec Ideal S96 .f32) :
    val_main_v33 (F := Ideal) x1 x8 x9 = edgeOut x1 x8 x9 := by
  funext i
  obtain ⟨p, q, rfl⟩ : ∃ (p : Fin 800000) (q : Fin 96), i = ix2 p q := ⟨i 0, i 1, eq_ix2 i⟩
  rw [val_main_v33_apply, val_main_v30_apply, val_main_v32_apply, val_main_v31_apply, bias_rel_idx]
  unfold edgeOut
  refine congrArg₂ (· + ·) (Finset.sum_congr rfl fun k _ => ?_) rfl
  rw [lidx30, ridx30]

end Cert.ReferenceIdeal.RefValue

end
-- ==== Proof.lean ====
/-
  CompGCN-style message passing: the Pallas program against its jnp reference, over the extended reals.

  Both programs first aggregate on the host with the same four scatter-adds: the in-degree and incoming edge sum of
  every node (at the edges' destinations), the out-degree and outgoing edge sum (at their sources). From these the
  node result at `(p, q)` is

      (∑ k, (din p · x (p, k) − sin (p, k)) · W_O (k, q) + b_O q) + (∑ k, (dout p · x (p, k) − sout (p, k)) · W_I (k, q) + b_I q)

  and the edge result at `(p, q)` is `∑ k, e (p, k) · W_rel (k, q) + b_rel q`. The reference computes exactly these
  with two general products over the whole arrays. The kernel computes the node result in ten blocks of 5000 rows
  and the edge result in eighty blocks of 10000 rows; inside a block it casts the operands of each product to a
  shorter float format, which at the ideal values is the identity, multiplies into a zero accumulator, and adds its
  four terms left to right, `((A + b_O) + B) + b_I`, where the reference adds `(A + b_O) + (B + b_I)`. Addition of
  extended reals is associative, so the two are one number at every entry; no input needs to be finite for that.

  The modules: `Spec` states the two results; `Payloads` reads each kernel body's stored value at an entry;
  `HostSide` says what each region finds in its windows' arrays; `NodeArray` and `EdgeArray` put the blocks
  together into the two result arrays; `NamedRun` and `KernelRun` give the kernel's run with its results named;
  `RefSide` reads the reference's two results. Here: the aggregation stages of the two programs are one term, and
  the five claims.
-/
import proofs.«105803_j40810779247267_1_alg».proof.Defs
import proofs.«105803_j40810779247267_1_alg».proof.Proof.Gen.Kernel
import proofs.«105803_j40810779247267_1_alg».proof.Proof.Gen.Kernel.Skeleton
import proofs.«105803_j40810779247267_1_alg».proof.Proof.Gen.Kernel.Launch
import proofs.«105803_j40810779247267_1_alg».proof.Proof.Gen.Kernel.Points
import proofs.«105803_j40810779247267_1_alg».proof.Proof.Gen.Kernel.Frame
import proofs.«105803_j40810779247267_1_alg».proof.Proof.Gen.KernelIdeal
import proofs.«105803_j40810779247267_1_alg».proof.Proof.Gen.KernelIdeal.Skeleton
import proofs.«105803_j40810779247267_1_alg».proof.Proof.Gen.KernelIdeal.Launch
import proofs.«105803_j40810779247267_1_alg».proof.Proof.Gen.KernelIdeal.Points
import proofs.«105803_j40810779247267_1_alg».proof.Proof.Gen.KernelIdeal.Frame
import proofs.«105803_j40810779247267_1_alg».proof.Proof.Gen.ReferenceIdeal
import proofs.«105803_j40810779247267_1_alg».proof.Proof.Gen.Pre_finite_inputs
import proofs.«105803_j40810779247267_1_alg».proof.Proof.Gen.ReferenceIdeal.Run
import proofs.«105803_j40810779247267_1_alg».proof.Proof.Gen.ReferenceIdeal.Read
import proofs.«105803_j40810779247267_1_alg».proof.Proof.KernelRun
import proofs.«105803_j40810779247267_1_alg».proof.Proof.RefSide
import Idealize.ShloMosaic.Adequacy
import Idealize.ShloMosaic.Init

noncomputable section

namespace Cert.Proof

open Idealize.ShloMosaic Idealize.SL.Sem

/-! ## The two programs aggregate alike -/

/-- The reference's in-degree stage is the kernel's host stage: the same scatter-add of ones at the destinations. -/
theorem deg_in (x3 : IVec Cert.ReferenceIdeal.S800000 32) :
    Cert.ReferenceIdeal.Read.val_main_v3 (F := Ideal) x3 = Cert.KernelIdeal.HostSide.degOf (F := Ideal) x3 := rfl
/-- The same at the sources, for the out-degree. -/
theorem deg_out (x2 : IVec Cert.ReferenceIdeal.S800000 32) :
    Cert.ReferenceIdeal.Read.val_main_v13 (F := Ideal) x2 = Cert.KernelIdeal.HostSide.degOf (F := Ideal) x2 := rfl
/-- The reference's incoming edge sum is the kernel's host stage: the same scatter-add of the edge embeddings. -/
theorem sum_in (x1 : FVec Ideal Cert.ReferenceIdeal.S800000x96 .f32) (x3 : IVec Cert.ReferenceIdeal.S800000 32) :
    Cert.ReferenceIdeal.Read.val_main_v6 (F := Ideal) x1 x3 = Cert.KernelIdeal.HostSide.sumOf (F := Ideal) x1 x3 := rfl
/-- The same at the sources, for the outgoing edge sum. -/
theorem sum_out (x1 : FVec Ideal Cert.ReferenceIdeal.S800000x96 .f32) (x2 : IVec Cert.ReferenceIdeal.S800000 32) :
    Cert.ReferenceIdeal.Read.val_main_v16 (F := Ideal) x1 x2 = Cert.KernelIdeal.HostSide.sumOf (F := Ideal) x1 x2 := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the program's own text read at the ideal values. -/
theorem preserves : Cert.preserves_Kernel_KernelIdeal := trivial

/-- From memories agreeing on the arguments the kernel ends at the node result and the edge result of its launch
    contents, and the reference at the same two functions of its own, which are the kernel's. -/
theorem algebraic : Cert.algebraic_KernelIdeal_ReferenceIdeal := by
  intro m ρ m' ρ' _ hagree
  refine ⟨fun c => Cert.KernelIdeal.NodeArr.nodeResult m c, fun c => Cert.KernelIdeal.EdgeArr.edgeResult m c,
    Cert.KernelIdeal.Run.run m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9⟩ := hagree c
  refine ⟨(h c).1.trans ?_, (h c).2.1.trans ?_, (h c).2.2⟩
  · rw [Cert.ReferenceIdeal.Read.val_main_v29_eq, Cert.ReferenceIdeal.RefValue.node_ref, deg_in, deg_out, sum_in, sum_out,
      e0, e1, e2, e3, e4, e5, e6, e7]
  · rw [Cert.ReferenceIdeal.Read.val_main_v33_eq, Cert.ReferenceIdeal.RefValue.edge_ref, e1, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
